-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x4096x256 : Shape := ⟨3, ![64, 4096, 256]⟩
abbrev S_ : Shape := ⟨0, ![]⟩

class Facts : Prop where
  bcast_S_S64x4096x256 : S_.BroadcastsInDim S64x4096x256 (![] : Fin 0 → Fin S64x4096x256.rank)
  reducesTo_S64x4096x256_S_d0_1_2 : S64x4096x256.ReducesTo [0, 1, 2] S_
  h_S_ : 0 < S_.numel

variable [Facts]

def fn {F : FTy → Type} [FloatOps F] (main_arg0 : FVec F S64x4096x256 .f32) : IVec S_ 1 :=
  let main_v0 : FVec F S64x4096x256 .f32 := Host.absf main_arg0
  let main_cst : FVec F S_ .f32 := constant S_ .f32 0x7F800000#32
  let main_v1 : FVec F S64x4096x256 .f32 := broadcastInDim S64x4096x256 ![] bcast_S_S64x4096x256 main_cst
  let main_v2 : IVec S64x4096x256 1 := cmpf .olt main_v0 main_v1
  let main_c : IVec S_ 1 := constantI S_ 1 1#1
  let main_v3 : IVec S_ 1 := (fun x v => Host.reduce IntOp.andi x v reducesTo_S64x4096x256_S_d0_1_2 h_S_) main_v2 main_c
  main_v3
-- ==== Kernel.lean ====
abbrev S64x4096x256 : Shape := ⟨3, ![64, 4096, 256]⟩
abbrev S131072x512 : Shape := ⟨2, ![131072, 512]⟩
abbrev S2048x512 : Shape := ⟨2, ![2048, 512]⟩
abbrev S2048x256 : Shape := ⟨2, ![2048, 256]⟩
abbrev S131072x256 : Shape := ⟨2, ![131072, 256]⟩
abbrev S64x2048x256 : Shape := ⟨3, ![64, 2048, 256]⟩
abbrev S64x2048x256x1 : Shape := ⟨4, ![64, 2048, 256, 1]⟩
abbrev S64x2048x256x2 : Shape := ⟨4, ![64, 2048, 256, 2]⟩
abbrev S64x2048x512 : Shape := ⟨3, ![64, 2048, 512]⟩

abbrev nBuf : Space → Nat
  | .hbm => 11
  | .vmem => 4
  | .smem => 0
  | _ => 0

abbrev bufTy : (tb : Table) → Fin (tcTables nBuf tb) → BufTy
  | .hbm, ⟨0, _⟩ => ⟨S64x4096x256, .f32⟩
  | .hbm, ⟨1, _⟩ => ⟨S131072x512, .f32⟩
  | .hbm, ⟨2, _⟩ => ⟨S131072x512, .f32⟩
  | .hbm, ⟨3, _⟩ => ⟨S131072x256, .f32⟩
  | .hbm, ⟨4, _⟩ => ⟨S64x2048x256, .f32⟩
  | .hbm, ⟨5, _⟩ => ⟨S131072x256, .f32⟩
  | .hbm, ⟨6, _⟩ => ⟨S64x2048x256, .f32⟩
  | .hbm, ⟨7, _⟩ => ⟨S64x2048x256x1, .f32⟩
  | .hbm, ⟨8, _⟩ => ⟨S64x2048x256x1, .f32⟩
  | .hbm, ⟨9, _⟩ => ⟨S64x2048x256x2, .f32⟩
  | .hbm, ⟨10, _⟩ => ⟨S64x2048x512, .f32⟩
  | .local _ .vmem, ⟨0, _⟩ => ⟨S2048x512, .f32⟩
  | .local _ .vmem, ⟨1, _⟩ => ⟨S2048x512, .f32⟩
  | .local _ .vmem, ⟨2, _⟩ => ⟨S2048x512, .f32⟩
  | .local _ .vmem, ⟨3, _⟩ => ⟨S2048x512, .f32⟩
  | _, _ => ⟨S64x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S64x4096x256_S131072x512 : S64x4096x256.ShapeCasts S131072x512
  inb_S2048x512_S2048x256_0_0 : ∀ a, (![0, 0] : Fin 2 → Nat) a + S2048x256.size a ≤ S2048x512.size a
  h_S2048x256 : 0 < S2048x256.numel
  shapeCasts_S2048x256_S2048x256 : S2048x256.ShapeCasts S2048x256
  inb_S2048x512_S2048x256_0_256 : ∀ a, (![0, 256] : Fin 2 → Nat) a + S2048x256.size a ≤ S2048x512.size a
  slices_S131072x512_S131072x256_0_0 : S131072x512.Slices ![0, 0] S131072x256
  shapeCasts_S131072x256_S64x2048x256 : S131072x256.ShapeCasts S64x2048x256
  slices_S131072x512_S131072x256_0_256 : S131072x512.Slices ![0, 256] S131072x256
  bcast_S64x2048x256_S64x2048x256x1_0_1_2 : S64x2048x256.BroadcastsInDim S64x2048x256x1 (![0, 1, 2] : Fin 3 → Fin S64x2048x256x1.rank)
  concatenates_S64x2048x256x1_S64x2048x256x1_S64x2048x256x2_d3 : Shape.Concatenates [S64x2048x256x1, S64x2048x256x1] S64x2048x256x2 3
  shapeCasts_S64x2048x256x2_S64x2048x512 : S64x2048x256x2.ShapeCasts S64x2048x512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S131072x512.size a
  hwx0_0 : ∀ i : grid0.Coords, EltTy.bits .f32 = 32 ∨ (Rect.block (s := S131072x512) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S131072x512.size a
  hwx0_1 : ∀ i : grid0.Coords, EltTy.bits .f32 = 32 ∨ (Rect.block (s := S131072x512) S2048x512.size (cc0_transform_1 i) (hinb0_1 i)).WholeWords (EltTy.packing .f32)

variable [Facts₀]

abbrev win0_0 : Pipeline.Window sig grid0 :=
  Pipeline.Window.ofSpec (Memref.whole main_v0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S64x4096x256 : Shape := ⟨3, ![64, 4096, 256]⟩
abbrev S64x2048x2x256 : Shape := ⟨4, ![64, 2048, 2, 256]⟩
abbrev S64x2048x1x256 : Shape := ⟨4, ![64, 2048, 1, 256]⟩
abbrev S64x2048x256 : Shape := ⟨3, ![64, 2048, 256]⟩
abbrev S_ : Shape := ⟨0, ![]⟩
abbrev S64x2048x256x1 : Shape := ⟨4, ![64, 2048, 256, 1]⟩
abbrev S64x2048x256x2 : Shape := ⟨4, ![64, 2048, 256, 2]⟩
abbrev S64x2048x512 : Shape := ⟨3, ![64, 2048, 512]⟩

abbrev nBuf : Space → Nat
  | .hbm => 18
  | .vmem => 0
  | .smem => 0
  | _ => 0

abbrev bufTy : (tb : Table) → Fin (tcTables nBuf tb) → BufTy
  | .hbm, ⟨0, _⟩ => ⟨S64x4096x256, .f32⟩
  | .hbm, ⟨1, _⟩ => ⟨S64x2048x2x256, .f32⟩
  | .hbm, ⟨2, _⟩ => ⟨S64x2048x1x256, .f32⟩
  | .hbm, ⟨3, _⟩ => ⟨S64x2048x256, .f32⟩
  | .hbm, ⟨4, _⟩ => ⟨S64x2048x1x256, .f32⟩
  | .hbm, ⟨5, _⟩ => ⟨S64x2048x256, .f32⟩
  | .hbm, ⟨6, _⟩ => ⟨S64x2048x256, .f32⟩
  | .hbm, ⟨7, _⟩ => ⟨S_, .f32⟩
  | .hbm, ⟨8, _⟩ => ⟨S64x2048x256, .f32⟩
  | .hbm, ⟨9, _⟩ => ⟨S64x2048x256, .f32⟩
  | .hbm, ⟨10, _⟩ => ⟨S64x2048x256, .f32⟩
  | .hbm, ⟨11, _⟩ => ⟨S_, .f32⟩
  | .hbm, ⟨12, _⟩ => ⟨S64x2048x256, .f32⟩
  | .hbm, ⟨13, _⟩ => ⟨S64x2048x256, .f32⟩
  | .hbm, ⟨14, _⟩ => ⟨S64x2048x256x1, .f32⟩
  | .hbm, ⟨15, _⟩ => ⟨S64x2048x256x1, .f32⟩
  | .hbm, ⟨16, _⟩ => ⟨S64x2048x256x2, .f32⟩
  | .hbm, ⟨17, _⟩ => ⟨S64x2048x512, .f32⟩
  | _, _ => ⟨S64x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_cst : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst_0 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩

abbrev nD : Nat := 1
abbrev τ : Topo := Topo.v7x

variable {F : FTy → Type} [FloatOps F]

class Facts₀ : Prop where
  shapeCasts_S64x4096x256_S64x2048x2x256 : S64x4096x256.ShapeCasts S64x2048x2x256
  slices_S64x2048x2x256_S64x2048x1x256_0_0_0_0 : S64x2048x2x256.Slices ![0, 0, 0, 0] S64x2048x1x256
  shapeCasts_S64x2048x1x256_S64x2048x256 : S64x2048x1x256.ShapeCasts S64x2048x256
  slices_S64x2048x2x256_S64x2048x1x256_0_0_1_0 : S64x2048x2x256.Slices ![0, 0, 1, 0] S64x2048x1x256
  bcast_S_S64x2048x256 : S_.BroadcastsInDim S64x2048x256 (![] : Fin 0 → Fin S64x2048x256.rank)
  bcast_S64x2048x256_S64x2048x256x1_0_1_2 : S64x2048x256.BroadcastsInDim S64x2048x256x1 (![0, 1, 2] : Fin 3 → Fin S64x2048x256x1.rank)
  concatenates_S64x2048x256x1_S64x2048x256x1_S64x2048x256x2_d3 : Shape.Concatenates [S64x2048x256x1, S64x2048x256x1] S64x2048x256x2 3
  shapeCasts_S64x2048x256x2_S64x2048x512 : S64x2048x256x2.ShapeCasts S64x2048x512

variable [Facts₀]

class Facts : Prop extends Facts₀ where

variable [Facts]
-- ==== Proof.PairRow.lean ====
/-
  Pairing the two halves of a 512-wide row.

  A row `r` of 512 entries is read as two halves of 256 entries: the left entry `r j` and the right entry
  `r (j + 256)`, for `j < 256`. The paired row holds in its left half the scaled sums `(r j + r (j + 256)) · s` and in
  its right half the scaled differences `(r (j - 256) - r j) · s`, where `s` is the single-precision number printed as
  0.707106769, the one nearest to `1/√2`. This is one level of the Haar transform of each pair `(r j, r (j + 256))`.
  An array of rows is paired row by row. Everything is stated for any float instance: no law of arithmetic is used,
  only which entries are read.
-/
import Idealize.ShloMosaic.Lib.Pipeline.Value
import Idealize.ShloMosaic.Lib.ValueIdx

noncomputable section

namespace Cert.Haar

open Idealize.ShloMosaic Idealize.ShloMosaic.ValueIdx

variable {F : FTy → Type} [FloatOps F]

/-- The scale of both programs: the single-precision word printed as 0.707106769. -/
abbrev scale : F .f32 := FloatOps.ofBits .f32 0x3F3504F3#32

/-- The scaled sum of a pair. -/
abbrev avg (a b : F .f32) : F .f32 := FloatOps.mulf (FloatOps.addf a b) scale
/-- The scaled difference of a pair. -/
abbrev det (a b : F .f32) : F .f32 := FloatOps.mulf (FloatOps.subf a b) scale

/-- A row of 512 paired: scaled sums on the left half, scaled differences on the right half. -/
def pairRow (r : Fin 512 → F .f32) (j : Fin 512) : F .f32 :=
  if h : j.val < 256 then avg (r ⟨j.val, by omega⟩) (r ⟨j.val + 256, by omega⟩)
  else det (r ⟨j.val - 256, by omega⟩) (r ⟨j.val, by omega⟩)

/-- On the left half the paired row is the scaled sum of the pair. -/
theorem pairRow_left (r : Fin 512 → F .f32) (j : Fin 512) (h : j.val < 256) (a b : F .f32)
    (ha : r ⟨j.val, by omega⟩ = a) (hb : r ⟨j.val + 256, by omega⟩ = b) : pairRow r j = avg a b := by
  unfold pairRow; rw [dif_pos h, ha, hb]

/-- On the right half it is the scaled difference of the pair. -/
theorem pairRow_right (r : Fin 512 → F .f32) (j : Fin 512) (h : 256 ≤ j.val) (a b : F .f32)
    (ha : r ⟨j.val - 256, by omega⟩ = a) (hb : r ⟨j.val, by omega⟩ = b) : pairRow r j = det a b := by
  unfold pairRow; rw [dif_neg (by omega), ha, hb]

/-- An array of `n` rows of 512, paired row by row. -/
def pairRows {n : Nat} (X : (⟨2, ![n, 512]⟩ : Shape).Idx → F .f32) : (⟨2, ![n, 512]⟩ : Shape).Idx → F .f32 :=
  fun y => pairRow (fun j => X (ix2 (n0 := n) (n1 := 512) (y 0) j)) (y 1)

/-- The paired array at row `p`, column `q`. -/
theorem pairRows_ix2 {n : Nat} (X : (⟨2, ![n, 512]⟩ : Shape).Idx → F .f32) (p : Fin n) (q : Fin 512) :
    pairRows X (ix2 p q) = pairRow (fun j => X (ix2 p j)) q := rfl

/-! ## The layouts both programs use

The argument x : [64, 4096, 256] laid out as 131072 rows of 512 has x[b, 2s, f] at row 2048 b + s, column f, and
x[b, 2s + 1, f] at column f + 256 of the same row (one row is two consecutive time steps). A half of an array of such
rows, cut out and laid out as [64, 2048, 256], has at (b, s, f) the entry at row 2048 b + s, column f (left) or f + 256
(right). -/

abbrev Sx : Shape := ⟨3, ![64, 4096, 256]⟩
abbrev Srows : Shape := ⟨2, ![131072, 512]⟩
abbrev Shalf : Shape := ⟨2, ![131072, 256]⟩
abbrev Scoef : Shape := ⟨3, ![64, 2048, 256]⟩

/-- Row 2048 b + s of the 131072 rows. -/
abbrev rowOf (b : Fin 64) (s : Fin 2048) : Fin 131072 := ⟨b.val * 2048 + s.val, by omega⟩
/-- The even time step 2s and the odd time step 2s + 1. -/
abbrev evenStep (s : Fin 2048) : Fin 4096 := ⟨2 * s.val, by omega⟩
abbrev oddStep (s : Fin 2048) : Fin 4096 := ⟨2 * s.val + 1, by omega⟩
/-- Column f of the left half and of the right half of a row. -/
abbrev leftCol (f : Fin 256) : Fin 512 := ⟨f.val, by omega⟩
abbrev rightCol (f : Fin 256) : Fin 512 := ⟨f.val + 256, by omega⟩

variable {α : Type}

/-- The left half of row 2048 b + s is the even time step. -/
theorem rows_left (x : Sx.Idx → α) (h : Sx.ShapeCasts Srows) (b : Fin 64) (s : Fin 2048) (f : Fin 256) :
    shapeCast Srows x h (ix2 (rowOf b s) (leftCol f)) = x (ix3 b (evenStep s) f) := by
  refine shapeCast_apply x h _ _ ?_
  rw [Shape.rowMajor_val_three, Shape.rowMajor_val_two]
  show (b.val * 4096 + 2 * s.val) * 256 + f.val = (b.val * 2048 + s.val) * 512 + f.val
  omega

/-- The right half of row 2048 b + s is the odd time step. -/
theorem rows_right (x : Sx.Idx → α) (h : Sx.ShapeCasts Srows) (b : Fin 64) (s : Fin 2048) (f : Fin 256) :
    shapeCast Srows x h (ix2 (rowOf b s) (rightCol f)) = x (ix3 b (oddStep s) f) := by
  refine shapeCast_apply x h _ _ ?_
  rw [Shape.rowMajor_val_three, Shape.rowMajor_val_two]
  show (b.val * 4096 + (2 * s.val + 1)) * 256 + f.val = (b.val * 2048 + s.val) * 512 + (f.val + 256)
  omega

/-- The left halves of an array of rows, laid out as [64, 2048, 256]. -/
theorem half_left (A : Srows.Idx → α) (h2 : Srows.Slices ![0, 0] Shalf) (h3 : Shalf.ShapeCasts Scoef)
    (b : Fin 64) (s : Fin 2048) (f : Fin 256) :
    shapeCast Scoef (extractStridedSlice Shalf ![0, 0] A h2) h3 (ix3 b s f) = A (ix2 (rowOf b s) (leftCol f)) := by
  refine (shapeCast_apply _ h3 (ix3 b s f) (ix2 (rowOf b s) f) ?_).trans ?_
  · rw [Shape.rowMajor_val_two, Shape.rowMajor_val_three]; rfl
  · refine extractStridedSlice_apply _ A h2 _ _ fun a => ?_
    match a with
    | ⟨0, _⟩ => show b.val * 2048 + s.val = 0 + (b.val * 2048 + s.val); omega
    | ⟨1, _⟩ => show f.val = 0 + f.val; omega

/-- The right halves of an array of rows, laid out as [64, 2048, 256]. -/
theorem half_right (A : Srows.Idx → α) (h2 : Srows.Slices ![0, 256] Shalf) (h3 : Shalf.ShapeCasts Scoef)
    (b : Fin 64) (s : Fin 2048) (f : Fin 256) :
    shapeCast Scoef (extractStridedSlice Shalf ![0, 256] A h2) h3 (ix3 b s f) = A (ix2 (rowOf b s) (rightCol f)) := by
  refine (shapeCast_apply _ h3 (ix3 b s f) (ix2 (rowOf b s) f) ?_).trans ?_
  · rw [Shape.rowMajor_val_two, Shape.rowMajor_val_three]; rfl
  · refine extractStridedSlice_apply _ A h2 _ _ fun a => ?_
    match a with
    | ⟨0, _⟩ => show b.val * 2048 + s.val = 0 + (b.val * 2048 + s.val); omega
    | ⟨1, _⟩ => show f.val + 256 = 256 + f.val; omega

/-- The paired rows of the laid-out argument, left half: the scaled sum of two consecutive time steps. -/
theorem paired_left (x : Sx.Idx → F .f32) (h : Sx.ShapeCasts Srows) (b : Fin 64) (s : Fin 2048) (f : Fin 256) :
    pairRows (n := 131072) (shapeCast Srows x h) (ix2 (rowOf b s) (leftCol f))
      = avg (x (ix3 b (evenStep s) f)) (x (ix3 b (oddStep s) f)) := by
  rw [pairRows_ix2]
  exact pairRow_left (fun j => shapeCast Srows x h (ix2 (rowOf b s) j)) (leftCol f) f.isLt _ _
    (rows_left x h b s f) (rows_right x h b s f)

/-- Right half: the scaled difference of the same two time steps. -/
theorem paired_right (x : Sx.Idx → F .f32) (h : Sx.ShapeCasts Srows) (b : Fin 64) (s : Fin 2048) (f : Fin 256) :
    pairRows (n := 131072) (shapeCast Srows x h) (ix2 (rowOf b s) (rightCol f))
      = det (x (ix3 b (evenStep s) f)) (x (ix3 b (oddStep s) f)) := by
  rw [pairRows_ix2]
  refine pairRow_right (fun j => shapeCast Srows x h (ix2 (rowOf b s) j)) (rightCol f) (by show 256 ≤ f.val + 256; omega) _ _
    ?_ (rows_right x h b s f)
  refine Eq.trans ?_ (rows_left x h b s f)
  show shapeCast Srows x h (ix2 (rowOf b s) ⟨f.val + 256 - 256, _⟩) = shapeCast Srows x h (ix2 (rowOf b s) ⟨f.val, _⟩)
  simp only [Nat.add_sub_cancel]

end Cert.Haar

end
-- ==== Proof.KernelArray.lean ====
/-
  The idealized kernel's result as one function of its argument.

  The program lays its argument x : [64, 4096, 256] out as 131072 rows of 512: row 2048 b + s holds x[b, 2s, ·] in its
  left half and x[b, 2s + 1, ·] in its right half. The region runs over 64 points; at point t it loads rows
  2048 t … 2048 t + 2047, stores the scaled sums of the two halves into the left half of the output block and the scaled
  differences into the right half, and writes the block back over the same rows. So after the region the output array
  is the input array paired row by row (`pairRows`): the body's two stores tile the block, every point's block is the
  block of that one array function, and the 64 blocks cover the array. The host operations after the region (`tail`)
  take the two halves of every row, lay each out as [64, 2048, 256] and interleave them along the last axis.
  Nothing here depends on the float instance.
-/
import proofs.«116317_j45938970198411_1_alg».proof.Proof.Gen.KernelIdeal.Frame
import proofs.«116317_j45938970198411_1_alg».proof.Proof.PairRow
import Idealize.ShloMosaic.Lib.Pipeline.Value
import Idealize.ShloMosaic.Lib.ValueIdx
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.Haar

variable {F : FTy → Type} [FloatOps F]
variable (m : (ℓ : Loc nD τ sig) → Buf (Elt F) ℓ) (ρ : Dev nD → PrngReg)

theorem r0_0_idx (p : Fin 2048) (q : Fin 256) : r0_0.idx (ix2 p q) = ix2 p ⟨q.val, by omega⟩ := by
  funext a; apply Fin.ext
  match a with
  | ⟨0, _⟩ => show 0 + 1 * p.val = p.val; omega
  | ⟨1, _⟩ => show 0 + 1 * q.val = q.val; omega

theorem r0_1_idx (p : Fin 2048) (q : Fin 256) : r0_1.idx (ix2 p q) = ix2 p ⟨q.val + 256, by omega⟩ := by
  funext a; apply Fin.ext
  match a with
  | ⟨0, _⟩ => show 0 + 1 * p.val = p.val; omega
  | ⟨1, _⟩ => show 256 + 1 * q.val = q.val + 256; omega

/-- The payload of the left store at row p, column q: the scaled sum of the pair (q, q + 256) of row p. -/
theorem pay_sum (x0 : Vec F S2048x512 .f32) (p : Fin 2048) (q : Fin 256) :
    k0_pay3 (View.ld x0 r0_0) (View.ld x0 r0_1) (ix2 p q)
      = avg (x0 (ix2 p ⟨q.val, by omega⟩)) (x0 (ix2 p ⟨q.val + 256, by omega⟩)) := by
  unfold k0_pay3 k0_pay1 k0_pay2
  simp only [shapeCast_self]
  show FloatOps.mulf (FloatOps.addf (x0 (r0_0.idx (ix2 p q))) (x0 (r0_1.idx (ix2 p q)))) _ = _
  rw [r0_0_idx, r0_1_idx]
  rfl

/-- The payload of the right store at row p, column q: the scaled difference of the same pair. -/
theorem pay_diff (x0 : Vec F S2048x512 .f32) (p : Fin 2048) (q : Fin 256) :
    k0_pay4 (View.ld x0 r0_0) (View.ld x0 r0_1) (ix2 p q)
      = det (x0 (ix2 p ⟨q.val, by omega⟩)) (x0 (ix2 p ⟨q.val + 256, by omega⟩)) := by
  unfold k0_pay4 k0_pay1 k0_pay2
  simp only [shapeCast_self]
  show FloatOps.mulf (FloatOps.subf (x0 (r0_0.idx (ix2 p q))) (x0 (r0_1.idx (ix2 p q)))) _ = _
  rw [r0_0_idx, r0_1_idx]
  rfl

/-- What the body leaves in the output's staging buffer is the input block paired row by row. -/
theorem block_eq (x0 : Vec F S2048x512 .f32) : out0_1 x0 = pairRows (n := 2048) x0 := by
  funext y
  unfold out0_1
  refine View.canon_apply_of_pieces (pairRows (n := 2048) x0) _ ?_ y (cover0_1 _ _ y)
  intro pc hpc x
  simp only [List.mem_cons, List.mem_nil_iff, or_false] at hpc
  rcases hpc with rfl | rfl
  · obtain ⟨p, q, rfl⟩ : ∃ (p : Fin 2048) (q : Fin 256), x = ix2 p q := ⟨x 0, x 1, eq_ix2 x⟩
    show k0_pay4 (View.ld x0 r0_0) (View.ld x0 r0_1) (ix2 p q) = pairRows (n := 2048) x0 (r0_1.idx (ix2 p q))
    rw [pay_diff, r0_1_idx, pairRows_ix2]
    refine (pairRow_right (fun j => x0 (ix2 p j)) ⟨q.val + 256, by omega⟩ (by show 256 ≤ q.val + 256; omega) _ _ ?_ rfl).symm
    show x0 (ix2 p ⟨q.val + 256 - 256, _⟩) = x0 (ix2 p ⟨q.val, _⟩)
    simp only [Nat.add_sub_cancel]
  · obtain ⟨p, q, rfl⟩ : ∃ (p : Fin 2048) (q : Fin 256), x = ix2 p q := ⟨x 0, x 1, eq_ix2 x⟩
    show k0_pay3 (View.ld x0 r0_0) (View.ld x0 r0_1) (ix2 p q) = pairRows (n := 2048) x0 (r0_0.idx (ix2 p q))
    rw [pay_sum, r0_0_idx, pairRows_ix2]
    exact (pairRow_left (fun j => x0 (ix2 p j)) ⟨q.val, by omega⟩ (by show q.val < 256; omega) _ _ rfl rfl).symm

/-- Over the grid both windows move one block of 2048 rows per point and stay at column block 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, win0_0.index t (0 : Fin 2) = t.val ∧ win0_0.index t (1 : Fin 2) = 0
    ∧ win0_1.index t (0 : Fin 2) = t.val ∧ win0_1.index t (1 : Fin 2) = 0)

theorem t_lt (t : Fin cfg0.N) : t.val < 64 := lt_of_lt_of_eq t.isLt (show cfg0.N = 64 from N_0)

/-- The array the region reads, as rows of 512. -/
abbrev xrows (c : Dev nD) : S131072x512.Idx → F .f32 := V m c main_v0

/-- The input block at point t, as 2048 rows of 512. -/
abbrev xblk (c : Dev nD) (t : Fin cfg0.N) : Vec F S2048x512 .f32 := iblk m c 0 t

/-- Row p, column k of the input block at point t is row 2048 t + p, column k of the array. -/
theorem xblk_apply (c : Dev nD) (t : Fin cfg0.N) (p : Fin 2048) (k : Fin 512) :
    xblk m c t (ix2 p k) = xrows m c (ix2 ⟨t.val * 2048 + p.val, by have := t_lt t; omega⟩ k) := by
  obtain ⟨e0, e1, e2, e3⟩ := idx_facts t
  show ((cfg0.win 0).blk t).view.read (Elt F) (V m c main_v0) (ix2 p k) = _
  rw [View.read_apply]
  show V m c main_v0 _ = V m c main_v0 _
  congr 1
  funext a; apply Fin.ext
  match a with
  | ⟨0, _⟩ => show win0_0.index t (0 : Fin 2) * 2048 + 1 * p.val = t.val * 2048 + p.val; rw [e0]; omega
  | ⟨1, _⟩ => show win0_0.index t (1 : Fin 2) * 512 + 1 * k.val = k.val; rw [e1]; omega

/-- The paired block at point t is the block of the paired array. -/
theorem block_at (c : Dev nD) (t : Fin cfg0.N) (p : Fin 2048) (q : Fin 512) :
    pairRows (n := 2048) (xblk m c t) (ix2 p q)
      = pairRows (n := 131072) (xrows m c) (ix2 ⟨t.val * 2048 + p.val, by have := t_lt t; omega⟩ q) := by
  rw [pairRows_ix2, pairRows_ix2]
  exact congrArg (fun r => pairRow r q) (funext fun k => xblk_apply m c t p k)

/-- Row p, column q of the output block at point t sits at row 2048 t + p, column q of the output array. -/
theorem oemb (t : Fin cfg0.N) (p : Fin 2048) (q : Fin 512) :
    ((cfg0.win 1).blk t).view.emb (ix2 p q) = ix2 (n0 := 131072) (n1 := 512) ⟨t.val * 2048 + p.val, by have := t_lt t; omega⟩ q := by
  obtain ⟨e0, e1, e2, e3⟩ := idx_facts t
  funext a; apply Fin.ext
  match a with
  | ⟨0, _⟩ => show win0_1.index t (0 : Fin 2) * 2048 + 1 * p.val = t.val * 2048 + p.val; rw [e2]; omega
  | ⟨1, _⟩ => show win0_1.index t (1 : Fin 2) * 512 + 1 * q.val = q.val; rw [e3]; omega

/-- What point t writes back is block t of the array paired row by row. -/
theorem flushed_eq (c : Dev nD) (t : Fin cfg0.N) :
    (dats m 0 c).flushed 1 t = ((cfg0.win 1).blk t).view.read (Elt F) (pairRows (n := 131072) (xrows m c)) := by
  show (cfg0.win 1).cut (grid0.coords t) ((dats m 0 c).after 1 t) = _
  rw [after0_1]
  funext j
  obtain ⟨p, q, rfl⟩ : ∃ (p : Fin 2048) (q : Fin 512), j = ix2 p q := ⟨j 0, j 1, eq_ix2 j⟩
  show out0_1 (xblk m c t) (ix2 p q) = pairRows (n := 131072) (xrows m c) (((cfg0.win 1).blk t).view.emb (ix2 p q))
  rw [block_eq (xblk m c t), oemb t p q]
  exact block_at m c t p q

/-- Every row of the array is in the block of the point its row number divided by 2048 names. -/
theorem cover (i : S131072x512.Idx) :
    ∃ t : Fin cfg0.N, (cfg0.win 1).flush t = true ∧ i ∈ ((cfg0.win 1).blk t).view.set := by
  have hi0 : (i 0).val < 131072 := (i 0).isLt
  have hi1 : (i 1).val < 512 := (i 1).isLt
  have hN : (i 0).val / 2048 < cfg0.N := by rw [show cfg0.N = 64 from N_0]; omega
  refine ⟨⟨(i 0).val / 2048, hN⟩, flush0_1 _, ?_⟩
  obtain ⟨e0, e1, e2, e3⟩ := idx_facts ⟨(i 0).val / 2048, hN⟩
  show i ∈ ((View.whole main_v1).slice (win0_1.rect ⟨(i 0).val / 2048, hN⟩)).set
  rw [View.set_slice_whole, Rect.mem_set_unit]
  intro a
  match a with
  | ⟨0, _⟩ =>
    show win0_1.index ⟨(i 0).val / 2048, hN⟩ (0 : Fin 2) * 2048 ≤ (i 0).val ∧ (i 0).val < win0_1.index ⟨(i 0).val / 2048, hN⟩ (0 : Fin 2) * 2048 + 2048
    rw [e2]; show (i 0).val / 2048 * 2048 ≤ (i 0).val ∧ (i 0).val < (i 0).val / 2048 * 2048 + 2048; omega
  | ⟨1, _⟩ =>
    show win0_1.index ⟨(i 0).val / 2048, hN⟩ (1 : Fin 2) * 512 ≤ (i 1).val ∧ (i 1).val < win0_1.index ⟨(i 0).val / 2048, hN⟩ (1 : Fin 2) * 512 + 512
    rw [e3]; omega

/-- After the region the output array is the input array paired row by row. -/
theorem final_arr (c : Dev nD) : (dats m 0 c).arrAt 1 cfg0.N = pairRows (n := 131072) (xrows m c) :=
  (dats m 0 c).arrAt_eq_of_cover 1 (pairRows (n := 131072) (xrows m c)) (fun t _ => flushed_eq m c t) cover

/-- The array the region reads is the argument laid out as 131072 rows of 512. -/
theorem xrows_eq (c : Dev nD) :
    xrows m c = shapeCast S131072x512 (m ((c : Thread nD τ).loc main_arg0)) shapeCasts_S64x4096x256_S131072x512 := by
  show StableHlo.after hostOps0 (fun b => m (c, b)) (Proc.devRef .tc main_v0) = _
  after_results
  rfl

/-- The host operations after the region, as one function of the region's output array: the left and the right half of
    every row, each laid out as [64, 2048, 256], interleaved entry by entry along the last axis. -/
def tail (A : S131072x512.Idx → F .f32) : S64x2048x512.Idx → F .f32 :=
  shapeCast S64x2048x512
    (concatenate S64x2048x256x2 3
      [⟨S64x2048x256x1, broadcastInDim S64x2048x256x1 ![0, 1, 2] bcast_S64x2048x256_S64x2048x256x1_0_1_2
          (shapeCast S64x2048x256 (extractStridedSlice S131072x256 ![0, 0] A slices_S131072x512_S131072x256_0_0) shapeCasts_S131072x256_S64x2048x256)⟩,
        ⟨S64x2048x256x1, broadcastInDim S64x2048x256x1 ![0, 1, 2] bcast_S64x2048x256_S64x2048x256x1_0_1_2
          (shapeCast S64x2048x256 (extractStridedSlice S131072x256 ![0, 256] A slices_S131072x512_S131072x256_0_256) shapeCasts_S131072x256_S64x2048x256)⟩]
      concatenates_S64x2048x256x1_S64x2048x256x1_S64x2048x256x2_d3)
    shapeCasts_S64x2048x256x2_S64x2048x512

/-- The program's result: the tail of the paired array. -/
theorem result_eq (c : Dev nD) :
    Pipeline.afterTail₀ cfgs (dats m) 0 (V0 m) [hostOps1] c main_v9 = tail (pairRows (n := 131072) (xrows m c)) := by
  have h : Pipeline.withArrays (cfgs 0).spec c (V0 m c) (fun w => (dats m 0 c).arrAt w (cfgs 0).N) (Proc.devRef .tc main_v1)
      = (dats m 0 c).arrAt 1 cfg0.N := Pipeline.withArrays_arr spec0 launch0.win.arr_inj c _ _ 1
  unfold Pipeline.afterTail₀
  show StableHlo.after hostOps1 _ (Proc.devRef .tc main_v9) = _
  after_results
  rw [h, final_arr]
  rfl

/-- The run, read: the result is the tail of the argument, laid out as rows of 512 and paired; the argument is unchanged. -/
theorem run : θ_run defs (onTc (τ := τ) (main (F := F))) ⟨m, fun _ => 0, ρ⟩ fun r => ∀ c : Dev nD,
      r.2.mem ((c : Thread nD τ).loc main_v9)
        = tail (pairRows (n := 131072) (shapeCast S131072x512 (m ((c : Thread nD τ).loc main_arg0)) shapeCasts_S64x4096x256_S131072x512))
      ∧ r.2.mem ((c : Thread nD τ).loc main_arg0) = m ((c : Thread nD τ).loc main_arg0) :=
  (θ_run defs _ _).mono (fun r h c =>
      ⟨((h c).2 main_v9 (Pipeline.mem_restRefs_of main_v9 (by decide) (by decide))).trans
          ((result_eq m c).trans (congrArg (fun X => tail (pairRows (n := 131072) X)) (xrows_eq m c))),
        ((h c).2 main_arg0 (Pipeline.mem_restRefs_of main_arg0 (by decide) (by decide))).trans (W_main_arg0 m (dats m) c)⟩)
    (run_main m ρ)

end Cert.KernelIdeal.Hand

end
-- ==== Proof.RefPairs.lean ====
/-
  The reference's two coefficient arrays, entry by entry.

  The reference lays x : [64, 4096, 256] out as [64, 2048, 2, 256], so that (b, s, e, f) holds x[b, 2s + e, f]; it cuts
  out e = 0 (the even time steps) and e = 1 (the odd ones), each laid out as [64, 2048, 256], and forms the scaled sum
  and the scaled difference of the two with the same scale as the kernel. Read at (b, s, f) these are the scaled sum and
  difference of x[b, 2s, f] and x[b, 2s + 1, f]. Nothing here depends on the float instance.
-/
import proofs.«116317_j45938970198411_1_alg».proof.Proof.Gen.ReferenceIdeal.Read
import proofs.«116317_j45938970198411_1_alg».proof.Proof.PairRow
import Idealize.ShloMosaic.Lib.Pipeline.Value
import Idealize.ShloMosaic.Lib.ValueIdx

noncomputable section

open Idealize.ShloMosaic Idealize.ShloMosaic.ValueIdx

namespace Cert.ReferenceIdeal.Hand

open Cert.ReferenceIdeal Cert.ReferenceIdeal.Gen Cert.ReferenceIdeal.Read Cert.Haar

variable {F : FTy → Type} [FloatOps F]

/-- The argument laid out as [64, 2048, 2, 256]: (b, s, e, f) holds time step 2s + e. -/
theorem pairs_entry (x : (⟨S64x4096x256, .f32⟩ : BufTy).Contents (Elt F)) (b : Fin 64) (s : Fin 2048) (e : Fin 2) (f : Fin 256) :
    val_main_v0 (F := F) x (ix4 b s e f) = x (ix3 b ⟨2 * s.val + e.val, by omega⟩ f) := by
  unfold val_main_v0
  refine shapeCast_apply x shapeCasts_S64x4096x256_S64x2048x2x256 _ _ ?_
  rw [Shape.rowMajor_val_three, Shape.rowMajor_val_four]
  show (b.val * 4096 + (2 * s.val + e.val)) * 256 + f.val = ((b.val * 2048 + s.val) * 2 + e.val) * 256 + f.val
  omega

/-- The even time steps. -/
theorem even_entry (x : (⟨S64x4096x256, .f32⟩ : BufTy).Contents (Elt F)) (b : Fin 64) (s : Fin 2048) (f : Fin 256) :
    val_main_v2 (F := F) x (ix3 b s f) = x (ix3 b (evenStep s) f) := by
  unfold val_main_v2
  refine (shapeCast_apply _ shapeCasts_S64x2048x1x256_S64x2048x256 (ix3 b s f) (ix4 b s (0 : Fin 1) f) ?_).trans ?_
  · rw [Shape.rowMajor_val_four, Shape.rowMajor_val_three]
    show ((b.val * 2048 + s.val) * 1 + 0) * 256 + f.val = (b.val * 2048 + s.val) * 256 + f.val
    omega
  unfold val_main_v1
  refine (extractStridedSlice_apply _ _ slices_S64x2048x2x256_S64x2048x1x256_0_0_0_0 (ix4 b s (0 : Fin 1) f) (ix4 b s (0 : Fin 2) f) fun a => ?_).trans ?_
  · match a with
    | ⟨0, _⟩ => show b.val = 0 + b.val; omega
    | ⟨1, _⟩ => show s.val = 0 + s.val; omega
    | ⟨2, _⟩ => show 0 = 0 + 0; omega
    | ⟨3, _⟩ => show f.val = 0 + f.val; omega
  exact pairs_entry x b s 0 f

/-- The odd time steps. -/
theorem odd_entry (x : (⟨S64x4096x256, .f32⟩ : BufTy).Contents (Elt F)) (b : Fin 64) (s : Fin 2048) (f : Fin 256) :
    val_main_v4 (F := F) x (ix3 b s f) = x (ix3 b (oddStep s) f) := by
  unfold val_main_v4
  refine (shapeCast_apply _ shapeCasts_S64x2048x1x256_S64x2048x256 (ix3 b s f) (ix4 b s (0 : Fin 1) f) ?_).trans ?_
  · rw [Shape.rowMajor_val_four, Shape.rowMajor_val_three]
    show ((b.val * 2048 + s.val) * 1 + 0) * 256 + f.val = (b.val * 2048 + s.val) * 256 + f.val
    omega
  unfold val_main_v3
  refine (extractStridedSlice_apply _ _ slices_S64x2048x2x256_S64x2048x1x256_0_0_1_0 (ix4 b s (0 : Fin 1) f) (ix4 b s (1 : Fin 2) f) fun a => ?_).trans ?_
  · match a with
    | ⟨0, _⟩ => show b.val = 0 + b.val; omega
    | ⟨1, _⟩ => show s.val = 0 + s.val; omega
    | ⟨2, _⟩ => show 1 = 1 + 0; omega
    | ⟨3, _⟩ => show f.val = 0 + f.val; omega
  exact pairs_entry x b s 1 f

/-- The reference's scale, read at any index. -/
theorem scale_entry (i : S64x2048x256.Idx) : val_main_v6 (F := F) i = scale := by
  rw [val_main_v6_apply, val_main_cst_apply]
theorem scale_entry' (i : S64x2048x256.Idx) : val_main_v9 (F := F) i = scale := by
  rw [val_main_v9_apply, val_main_cst_0_apply]

/-- The reference's approximation coefficients: the scaled sum of two consecutive time steps. -/
theorem sums_entry (x : (⟨S64x4096x256, .f32⟩ : BufTy).Contents (Elt F)) (b : Fin 64) (s : Fin 2048) (f : Fin 256) :
    val_main_v7 (F := F) x (ix3 b s f) = avg (x (ix3 b (evenStep s) f)) (x (ix3 b (oddStep s) f)) := by
  rw [val_main_v7_apply, val_main_v5_apply, even_entry, odd_entry, scale_entry]

/-- The reference's detail coefficients: their scaled difference. -/
theorem diffs_entry (x : (⟨S64x4096x256, .f32⟩ : BufTy).Contents (Elt F)) (b : Fin 64) (s : Fin 2048) (f : Fin 256) :
    val_main_v10 (F := F) x (ix3 b s f) = det (x (ix3 b (evenStep s) f)) (x (ix3 b (oddStep s) f)) := by
  rw [val_main_v10_apply, val_main_v8_apply, even_entry, odd_entry, scale_entry']

end Cert.ReferenceIdeal.Hand

end
-- ==== Proof.Bridge.lean ====
/-
  The two results are one function of the argument.

  Both programs end with the same three operations on a pair of [64, 2048, 256] arrays (append a unit axis to each, join
  the two along it, lay the result out as [64, 2048, 512]: entry 2f of the last axis comes from the first array, entry
  2f + 1 from the second). So it is enough that the two arrays agree. The kernel's first array is the left halves of the
  paired rows, laid out as [64, 2048, 256]: at (b, s, f) the scaled sum of x[b, 2s, f] and x[b, 2s + 1, f], which is the
  reference's approximation coefficient there; its second array is the right halves, the scaled differences, the
  reference's detail coefficients.
-/
import proofs.«116317_j45938970198411_1_alg».proof.Proof.KernelArray
import proofs.«116317_j45938970198411_1_alg».proof.Proof.RefPairs

noncomputable section

open Idealize.ShloMosaic Idealize.ShloMosaic.ValueIdx

namespace Cert.Haar

variable {F : FTy → Type} [FloatOps F]

/-- The argument laid out as 131072 rows of 512 and paired row by row: the region's output array. -/
abbrev pairedRows (x : Cert.KernelIdeal.S64x4096x256.Idx → F .f32) : Cert.KernelIdeal.S131072x512.Idx → F .f32 :=
  pairRows (n := 131072) (shapeCast Cert.KernelIdeal.S131072x512 x Cert.KernelIdeal.Gen.shapeCasts_S64x4096x256_S131072x512)

/-- The left halves of the paired rows are the reference's approximation coefficients. -/
theorem left_eq (x : Cert.KernelIdeal.S64x4096x256.Idx → F .f32) :
    shapeCast Cert.KernelIdeal.S64x2048x256
        (extractStridedSlice Cert.KernelIdeal.S131072x256 ![0, 0] (pairedRows x) Cert.KernelIdeal.Gen.slices_S131072x512_S131072x256_0_0)
        Cert.KernelIdeal.Gen.shapeCasts_S131072x256_S64x2048x256
      = Cert.ReferenceIdeal.Read.val_main_v7 (F := F) x := by
  funext i
  obtain ⟨b, s, f, rfl⟩ : ∃ (b : Fin 64) (s : Fin 2048) (f : Fin 256), i = ix3 b s f := ⟨i 0, i 1, i 2, eq_ix3 i⟩
  exact (half_left (pairedRows x) _ _ b s f).trans
    ((paired_left x _ b s f).trans (Cert.ReferenceIdeal.Hand.sums_entry x b s f).symm)

/-- The right halves are its detail coefficients. -/
theorem right_eq (x : Cert.KernelIdeal.S64x4096x256.Idx → F .f32) :
    shapeCast Cert.KernelIdeal.S64x2048x256
        (extractStridedSlice Cert.KernelIdeal.S131072x256 ![0, 256] (pairedRows x) Cert.KernelIdeal.Gen.slices_S131072x512_S131072x256_0_256)
        Cert.KernelIdeal.Gen.shapeCasts_S131072x256_S64x2048x256
      = Cert.ReferenceIdeal.Read.val_main_v10 (F := F) x := by
  funext i
  obtain ⟨b, s, f, rfl⟩ : ∃ (b : Fin 64) (s : Fin 2048) (f : Fin 256), i = ix3 b s f := ⟨i 0, i 1, i 2, eq_ix3 i⟩
  exact (half_right (pairedRows x) _ _ b s f).trans
    ((paired_right x _ b s f).trans (Cert.ReferenceIdeal.Hand.diffs_entry x b s f).symm)

/-- The kernel's result and the reference's are one function of the argument. -/
theorem result_eq (x : Cert.KernelIdeal.S64x4096x256.Idx → F .f32) :
    Cert.KernelIdeal.Hand.tail (pairedRows x) = Cert.ReferenceIdeal.Read.val_main_v14 (F := F) x := by
  unfold Cert.KernelIdeal.Hand.tail
  rw [left_eq, right_eq]
  rfl

end Cert.Haar

end
-- ==== Proof.lean ====
/-
  One level of the Haar transform along the time axis, kernel against reference.

  For x : [64, 4096, 256] both programs compute, for every batch b, pair index s < 2048 and feature f < 256, the scaled sum
  a = (x[b, 2s, f] + x[b, 2s + 1, f]) · c and the scaled difference d = (x[b, 2s, f] - x[b, 2s + 1, f]) · c with the same
  single-precision scale c (printed 0.707106769), and return them interleaved: out[b, s, 2f] = a, out[b, s, 2f + 1] = d.

  The kernel reads x as 131072 rows of 512 (a row is two consecutive time steps side by side), and on each block of 2048
  rows writes the sums into the left half of the row and the differences into the right half (Proof/KernelArray.lean);
  the host then cuts the two halves out and interleaves them. The reference reads x as [64, 2048, 2, 256], cuts the even
  and the odd time steps out, forms the same sum and difference (Proof/RefPairs.lean) and interleaves them with the same
  operations. The two results are equal entry by entry with no law of arithmetic used — the same operations meet the same
  entries of x (Proof/Bridge.lean) — so the precondition is never opened. The frames of the two kernel programs are the
  generated ones; the reference's is its generated run with the result dropped; the idealization rewrote nothing.
-/
import proofs.«116317_j45938970198411_1_alg».proof.Defs
import proofs.«116317_j45938970198411_1_alg».proof.Proof.Gen.Kernel
import proofs.«116317_j45938970198411_1_alg».proof.Proof.Gen.Kernel.Skeleton
import proofs.«116317_j45938970198411_1_alg».proof.Proof.Gen.Kernel.Launch
import proofs.«116317_j45938970198411_1_alg».proof.Proof.Gen.Kernel.Points
import proofs.«116317_j45938970198411_1_alg».proof.Proof.Gen.Kernel.Frame
import proofs.«116317_j45938970198411_1_alg».proof.Proof.Gen.KernelIdeal
import proofs.«116317_j45938970198411_1_alg».proof.Proof.Gen.KernelIdeal.Skeleton
import proofs.«116317_j45938970198411_1_alg».proof.Proof.Gen.KernelIdeal.Launch
import proofs.«116317_j45938970198411_1_alg».proof.Proof.Gen.KernelIdeal.Points
import proofs.«116317_j45938970198411_1_alg».proof.Proof.Gen.KernelIdeal.Frame
import proofs.«116317_j45938970198411_1_alg».proof.Proof.Gen.ReferenceIdeal
import proofs.«116317_j45938970198411_1_alg».proof.Proof.Gen.ReferenceIdeal.Run
import proofs.«116317_j45938970198411_1_alg».proof.Proof.Gen.ReferenceIdeal.Read
import proofs.«116317_j45938970198411_1_alg».proof.Proof.Gen.Pre_finite_inputs
import proofs.«116317_j45938970198411_1_alg».proof.Proof.KernelArray
import proofs.«116317_j45938970198411_1_alg».proof.Proof.RefPairs
import proofs.«116317_j45938970198411_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel runs and leaves its argument as it was. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a list of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From agreeing arguments the kernel ends at the interleaved halves of the paired rows and the reference at its
    interleaved coefficient arrays: one function of the argument. -/
theorem algebraic : Cert.algebraic_KernelIdeal_ReferenceIdeal := by
  intro m ρ m' ρ' _ hagree
  refine ⟨_, Cert.KernelIdeal.Hand.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, hagree c]
  exact (Cert.Haar.result_eq _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
